-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S1600000 .f32) (main_arg1 : FVec F S100000x128 .f32) (main_arg2 : IVec S2x1600000 32) (main_arg3 : FVec F S128x128 .f32) (main_arg4 : FVec F S128 .f32) : IVec S_ 1 :=
  let main_v0 : FVec F S1600000 .f32 := Host.absf main_arg0
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S1600000 : Shape := ⟨1, ![1600000]⟩
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S6400x128 : Shape := ⟨2, ![6400, 128]⟩
abbrev S6400x1 : Shape := ⟨2, ![6400, 1]⟩
abbrev S1x128 : Shape := ⟨2, ![1, 128]⟩
abbrev S2000x128 : Shape := ⟨2, ![2000, 128]⟩

abbrev nBuf : Space → Nat
  | .hbm => 28
  | .vmem => 12
  | .smem => 0
  | _ => 0

abbrev bufTy : (tb : Table) → Fin (tcTables nBuf tb) → BufTy
  | .hbm, ⟨0, _⟩ => ⟨S1600000, .f32⟩
  | .hbm, ⟨1, _⟩ => ⟨S100000x128, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S128x128, .f32⟩
  | .hbm, ⟨25, _⟩ => ⟨S128x128, .bf16⟩
  | .hbm, ⟨26, _⟩ => ⟨S1x128, .f32⟩
  | .hbm, ⟨27, _⟩ => ⟨S100000x128, .f32⟩
  | .local _ .vmem, ⟨0, _⟩ => ⟨S6400x128, .f32⟩
  | .local _ .vmem, ⟨1, _⟩ => ⟨S6400x128, .f32⟩
  | .local _ .vmem, ⟨2, _⟩ => ⟨S6400x1, .f32⟩
  | .local _ .vmem, ⟨3, _⟩ => ⟨S6400x1, .f32⟩
  | .local _ .vmem, ⟨4, _⟩ => ⟨S6400x128, .f32⟩
  | .local _ .vmem, ⟨5, _⟩ => ⟨S6400x128, .f32⟩
  | .local _ .vmem, ⟨6, _⟩ => ⟨S2000x128, .f32⟩
  | .local _ .vmem, ⟨7, _⟩ => ⟨S2000x128, .f32⟩
  | .local _ .vmem, ⟨8, _⟩ => ⟨S128x128, .bf16⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | _, _ => ⟨S1600000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x128 : S6400x1.Broadcasts S6400x128
  slices_S2x1600000_S1x1600000_0_0 : S2x1600000.Slices ![0, 0] S1x1600000
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .f32 = 32 ∨ (Rect.block (s := S1600000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S1600000x1.size a
  hwx0_1 : ∀ i : grid0.Coords, EltTy.bits .f32 = 32 ∨ (Rect.block (s := S1600000x1) S6400x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S1600000x128.size a
  hwx0_2 : ∀ i : grid0.Coords, EltTy.bits .f32 = 32 ∨ (Rect.block (s := S1600000x128) S6400x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v8) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S6400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1600000 : Shape := ⟨1, ![1600000]⟩
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S1600000, .f32⟩
  | .hbm, ⟨1, _⟩ => ⟨S100000x128, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S1x1600000, .i32⟩
  | .hbm, ⟨20, _⟩ => ⟨S1600000, .i32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S128x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | _, _ => ⟨S1600000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  slices_S2x1600000_S1x1600000_0_0 : S2x1600000.Slices ![0, 0] S1x1600000
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.LibRowReduce.lean ====
/-
  Row blocks under the operations of a row normalisation, at the exact instance.

  Beside the row-wise operations of LibRowBlock.lean, a layer that normalises each row needs five more, each of which
  again computes row `r` of its result from rows `r` of its operands alone: the quotient, the reciprocal square root,
  a column repeated along every row, the sum of each row kept as a column, and (already there as the splat of a
  constant, at one column) a constant column. The lemmas below say so, with the whole-matrix side spelt as a host
  program spells it and the block side as a kernel body does.
-/
import proofs.«145233_j4913442586878_1_alg».proof.Proof.LibRowBlock

noncomputable section

namespace Cert.RowBlock

open Idealize.ShloMosaic Idealize.ShloMosaic.ValueIdx

/-! ## A trailing unit axis -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast to `[a, 1]` along its one axis reads, at `(i, u)`, the operand at `i`. -/
theorem broadcastInDim_a_a1_apply {α : Type} {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- An `[a, 1]` column broadcast to `[a, b]` reads, at `(i, c)`, the column at row `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- An `[a, 1]` column broadcast to `[a, b]` with both axes kept in place reads, at `(i, c)`, the column at row `i`. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (i : Fin a) (c : Fin b) :
    broadcastInDim ⟨2, ![a, b]⟩ ![0, 1] h v (ix2 i c) = v (ix2 i (0 : Fin 1)) := by
  refine broadcastInDim_apply ![0, 1] h v (ix2 i c) (ix2 i (0 : Fin 1)) fun ax => ?_
  match ax with
  | ⟨0, _⟩ =>
    show i.val = if a = 1 then 0 else i.val
    split
    · have := i.isLt; omega
    · rfl
  | ⟨1, _⟩ => rfl

namespace IsRows

variable {N n B t : Nat}

/-! ## The quotient and the reciprocal square root -/

section Arith
variable {φ : FTy} {A A' : FVec Ideal ⟨2, ![N, n]⟩ φ} {a a' : FVec Ideal ⟨2, ![B, n]⟩ φ}

/-- The host's quotient and the kernel's are one function of two extended reals. -/
theorem div (H : IsRows B t A a) (H' : IsRows B t A' a') : IsRows B t (Host.divf A A') (divf a a') := by
  intro p j r hr
  show Ideal.div (a (ix2 p j)) (a' (ix2 p j)) = Ideal.div (A (ix2 r j)) (A' (ix2 r j))
  rw [H p j r hr, H' p j r hr]

/-- The host's reciprocal square root and the kernel's are one function of an extended real. -/
theorem rsqrtf (H : IsRows B t A a) : IsRows B t (Host.rsqrt A) (rsqrt a) := by
  intro p j r hr
  show Ideal.rsqrt (a (ix2 p j)) = Ideal.rsqrt (A (ix2 r j))
  rw [H p j r hr]

end Arith

/-! ## A column repeated along the rows -/

/-- A column repeated on every column: row `r` of the result is the column's entry `r`, so the row block of the repeated
    column is the repeated row block of the column. -/
theorem cols {α : Type} {V : (⟨2, ![N, 1]⟩ : Shape).Idx → α} {v : (⟨2, ![B, 1]⟩ : Shape).Idx → α} (H : IsRows B t V v)
    (hV : (⟨2, ![N, 1]⟩ : Shape).BroadcastsInDim ⟨2, ![N, n]⟩ ![0, 1]) (hv : (⟨2, ![B, 1]⟩ : Shape).Broadcasts ⟨2, ![B, n]⟩) :
    IsRows B t (broadcastInDim ⟨2, ![N, n]⟩ ![0, 1] hV V) (broadcastTo ⟨2, ![B, n]⟩ v hv) := by
  intro p j r hr
  rw [broadcastTo_a1_ab_apply, broadcastInDim_a1_ab_apply]
  exact H p 0 r hr

/-! ## The sum of each row, as a column -/

/-- The sum of each row: `0 + ∑ⱼ A(r, j)` on the whole matrix, `∑ⱼ a(p, j)` on the block, each kept as a column; row
    `r` of the result is the sum of row `r` of the operand. -/
theorem rowSum {φ : FTy} {A : FVec Ideal ⟨2, ![N, n]⟩ φ} {a : FVec Ideal ⟨2, ![B, n]⟩ φ} (H : IsRows B t A a)
    (z : BitVec φ.bits) (hz : Ideal.ofBits φ z = 0)
    (hR : (⟨2, ![N, n]⟩ : Shape).ReducesTo [1] ⟨1, ![N]⟩) (hu : 0 < (⟨0, ![]⟩ : Shape).numel)
    (hb : (⟨1, ![N]⟩ : Shape).BroadcastsInDim ⟨2, ![N, 1]⟩ ![0])
    (acc : BitVec φ.bits) (hr : (⟨2, ![B, n]⟩ : Shape).Reduces [1] ⟨1, ![B]⟩) (hφ : FKind.Formats φ)
    (hacc : acc = FKind.add.neutral φ hφ) (hc : (⟨1, ![B]⟩ : Shape).ShapeCasts ⟨2, ![B, 1]⟩) :
    IsRows B t
      (broadcastInDim ⟨2, ![N, 1]⟩ ![0] hb (Host.reduceAdd A (constant (F := Ideal) ⟨0, ![]⟩ φ z) hR hu))
      (shapeCast ⟨2, ![B, 1]⟩ (multiReduction .add [1] ⟨1, ![B]⟩ a acc hr hφ hacc) hc) := by
  intro p j r hpr
  have hR' : (⟨2, ![N, n]⟩ : Shape).Reduces [1] ⟨1, ![N]⟩ := ⟨hR.1, Nat.one_pos, hR.2⟩
  rw [shapeCast_a_a1_apply, broadcastInDim_a_a1_apply]
  refine (Ideal.multiReduction_add_single a acc hr hφ hacc (ix1 p)).trans (Eq.symm ?_)
  refine (Ideal.hostReduceAdd_single hR hR' A _ (ix1 r)).trans ?_
  show Ideal.ofBits φ z + ∑ k : Fin n, A (hR'.lift (ix1 r) k) = ∑ k : Fin n, a (hr.lift (ix1 p) k)
  rw [hz, zero_add]
  refine Finset.sum_congr rfl fun k _ => ?_
  have eA : hR'.lift (ix1 r) k = ix2 r k := funext fun c => Fin.ext (by
    match c with
    | ⟨0, _⟩ => rfl
    | ⟨1, _⟩ => rfl)
  have ea : hr.lift (ix1 p) k = ix2 p k := funext fun c => Fin.ext (by
    match c with
    | ⟨0, _⟩ => rfl
    | ⟨1, _⟩ => rfl)
  rw [eA, ea]
  exact (H p k r hpr).symm

end IsRows

end Cert.RowBlock

end
-- ==== Proof.ScaleValue.lean ====
/-
  The first region scales each gathered row by its edge's probability.

  Its grid has 250 points; point `t` reads rows `6400·t, …, 6400·t + 6399` of the gathered matrix `X` (1600000 × 128) and
  of the probability column `p` (1600000 × 1), and writes the same rows of its output. Inside the block the body
  repeats the column along the 128 lanes and multiplies, so entry `(r, j)` of the output is `X(r, j) · p(r, 0)`:
  the output array is `X ⊙ (p repeated along the rows)`, whatever the two arrays held when the region was entered.
-/
import proofs.«145233_j4913442586878_1_alg».proof.Proof.Gen.KernelIdeal.Frame
import proofs.«145233_j4913442586878_1_alg».proof.Proof.LibRowReduce
import Idealize.ShloMosaic.Lib.Pipeline.Value
import Idealize.ShloMosaic.Lib.ValueIdx

set_option maxRecDepth 16384

noncomputable section

namespace Cert.KernelIdeal.Scale

open Cert.KernelIdeal Cert.KernelIdeal.Gen Cert.RowBlock
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The gathered rows as the region finds them. -/
abbrev rowsIn (c : Dev nD) : FVec Ideal S1600000x128 .f32 := V c main_v8
/-- The probability column as the region finds it. -/
abbrev colIn (c : Dev nD) : FVec Ideal S1600000x1 .f32 := V c main_v9

/-- A column of 1600000 entries can be repeated along 128 lanes. -/
theorem repeats : S1600000x1.BroadcastsInDim S1600000x128 (![0, 1] : Fin 2 → Fin S1600000x128.rank) := by decide

/-- Every row scaled by its probability: the whole output as one function of the two input arrays. -/
def scaled (c : Dev nD) : FVec Ideal S1600000x128 .f32 :=
  mulf (rowsIn V c) (broadcastInDim S1600000x128 ![0, 1] repeats (colIn V c))

theorem hz : (![0, 0] : Fin 2 → Nat) = fun _ => 0 := funext fun a => by fin_cases a <;> rfl

/-- At point `t` every window is on block `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem lt_points (t : Fin cfg0.N) : t.val < 250 := lt_of_lt_of_eq t.isLt N_0

/-- The block of gathered rows at point `t` is rows `6400·t …` of the gathered matrix. -/
theorem rows_blk (c : Dev nD) (t : Fin cfg0.N) : IsRows 6400 t.val (rowsIn V c) (iblk0 V c 0 t) := by
  intro p j r hr
  obtain ⟨e0, e1, -⟩ := idx_facts t
  show V c main_v8 (((cfg0.win 0).blk t).view.emb (ix2 p j)) = V c main_v8 (ix2 r j)
  refine congrArg _ (funext fun a => Fin.ext ?_)
  match a with
  | ⟨0, _⟩ => show win0_0.index t (0 : Fin 2) * 6400 + 1 * p.val = r.val; omega
  | ⟨1, _⟩ => show win0_0.index t (1 : Fin 2) * 128 + 1 * j.val = j.val; omega

/-- The block of probabilities at point `t` is rows `6400·t …` of the probability column. -/
theorem col_blk (c : Dev nD) (t : Fin cfg0.N) : IsRows 6400 t.val (colIn V c) (iblk0 V c 1 t) := by
  intro p j r hr
  obtain ⟨-, -, e0, e1, -⟩ := idx_facts t
  show V c main_v9 (((cfg0.win 1).blk t).view.emb (ix2 p j)) = V c main_v9 (ix2 r j)
  refine congrArg _ (funext fun a => Fin.ext ?_)
  match a with
  | ⟨0, _⟩ => show win0_1.index t (0 : Fin 2) * 6400 + 1 * p.val = r.val; omega
  | ⟨1, _⟩ => show win0_1.index t (1 : Fin 2) * 1 + 1 * j.val = j.val; omega

/-- What the body stores at point `t` is rows `6400·t …` of the scaled matrix. -/
theorem pay_blk (c : Dev nD) (t : Fin cfg0.N) :
    IsRows 6400 t.val (scaled V c) (k0_pay1 (iblk0 V c 0 t) (iblk0 V c 1 t)) := by
  unfold k0_pay1 scaled
  dsimp only
  rw [shapeCast_self, shapeCast_self]
  exact IsRows.mul (rows_blk V c t) (IsRows.cols (col_blk V c t) repeats _)

/-- What point `t` writes back is block `t` of the scaled matrix. -/
theorem flushed_eq (c : Dev nD) (t : Fin cfg0.N) :
    (dat0 V c).flushed 2 t = ((cfg0.win 2).blk t).view.read (Elt Ideal) (scaled V c) := by
  show (cfg0.win 2).cut (grid0.coords t) ((dat0 V c).after 2 t) = _
  rw [after0_2]
  unfold out0_2
  rw [View.canon_unit_zero hz]
  simp only [View.ld_unit_zero (S := S6400x128) hz, View.ld_unit_zero (S := S6400x1) hz]
  funext y
  obtain ⟨p, j, rfl⟩ : ∃ (p : Fin 6400) (j : Fin 128), y = ix2 p j := ⟨y 0, y 1, eq_ix2 y⟩
  have ht := lt_points t
  have hr : 6400 * t.val + p.val < 1600000 := by have := p.isLt; omega
  refine (pay_blk V c t p j ⟨6400 * t.val + p.val, hr⟩ rfl).trans ?_
  obtain ⟨-, -, -, -, e0, e1⟩ := idx_facts t
  show scaled V c (ix2 ⟨6400 * t.val + p.val, hr⟩ j) = scaled V c (((cfg0.win 2).blk t).view.emb (ix2 p j))
  refine congrArg _ (funext fun a => Fin.ext ?_)
  match a with
  | ⟨0, _⟩ => show 6400 * t.val + p.val = win0_2.index t (0 : Fin 2) * 6400 + 1 * p.val; omega
  | ⟨1, _⟩ => show j.val = win0_2.index t (1 : Fin 2) * 128 + 1 * j.val; omega

/-- An index of the output array is in point `t`'s block iff each coordinate is in the block's range on its axis. -/
theorem mem_blk (t : Fin cfg0.N) (i : S1600000x128.Idx) :
    i ∈ ((cfg0.win 2).blk t).view.set ↔ ∀ a : Fin 2, win0_2.index t a * S6400x128.size a ≤ (i a).val ∧ (i a).val < win0_2.index t a * S6400x128.size a + S6400x128.size a := by
  show i ∈ ((View.whole main_v10).slice (win0_2.rect t)).set ↔ _
  rw [View.set_slice_whole, Rect.mem_set_unit]
  exact Iff.rfl

/-- Row `r` of the output lies in the block of point `r / 6400`: the 250 blocks cover the array. -/
theorem cover (i : S1600000x128.Idx) :
    ∃ t : Fin cfg0.N, (cfg0.win 2).flush t = true ∧ i ∈ ((cfg0.win 2).blk t).view.set := by
  have hi0 : (i 0).val < 1600000 := (i 0).isLt
  have hi1 : (i 1).val < 128 := (i 1).isLt
  have hq : (i 0).val / 6400 < cfg0.N := by rw [show cfg0.N = 250 from N_0]; omega
  refine ⟨⟨(i 0).val / 6400, hq⟩, flush0_2 _, ?_⟩
  rw [mem_blk]
  obtain ⟨-, -, -, -, e0, e1⟩ := idx_facts ⟨(i 0).val / 6400, hq⟩
  intro a
  match a with
  | ⟨0, _⟩ =>
    show win0_2.index ⟨(i 0).val / 6400, hq⟩ (0 : Fin 2) * 6400 ≤ (i 0).val ∧ (i 0).val < win0_2.index ⟨(i 0).val / 6400, hq⟩ (0 : Fin 2) * 6400 + 6400
    rw [e0]; show (i 0).val / 6400 * 6400 ≤ (i 0).val ∧ (i 0).val < (i 0).val / 6400 * 6400 + 6400; omega
  | ⟨1, _⟩ =>
    show win0_2.index ⟨(i 0).val / 6400, hq⟩ (1 : Fin 2) * 128 ≤ (i 1).val ∧ (i 1).val < win0_2.index ⟨(i 0).val / 6400, hq⟩ (1 : Fin 2) * 128 + 128
    rw [e1]; omega

/-- After the region its output array holds every gathered row scaled by its probability. -/
theorem final (c : Dev nD) : (dat0 V c).arrAt 2 cfg0.N = scaled V c :=
  (dat0 V c).arrAt_eq_of_cover 2 (scaled V c) (fun t _ => flushed_eq V c t) (cover)

end Cert.KernelIdeal.Scale

end
-- ==== Proof.Stretches.lean ====
/-
  The host operations around the two regions, read as values of the argument arrays.

  Before the first region the program takes row 1 of the edge list (the target node of each edge, a negative id
  counted from the end), gathers those rows of the node features, and reshapes the edge probabilities into a column.
  Between the regions it takes row 0 of the edge list (the source node of each edge), adds every scaled row into the row
  of its source node starting from zeros, transposes the weight matrix and narrows it to sixteen-bit floats, and
  reshapes the bias into a row. None of these operations writes an argument array, and the first region writes only its
  own output, so each operand is a function of the arguments as launched.
-/
import proofs.«145233_j4913442586878_1_alg».proof.Proof.ScaleValue

set_option maxRecDepth 16384

noncomputable section

namespace Cert.KernelIdeal.Stretch

open Cert.KernelIdeal Cert.KernelIdeal.Gen Cert.RowBlock
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Row `k` of the edge list, as a vector over the edges. -/
def edgeRow1 (I : IVec S2x1600000 32) : IVec S1600000 32 :=
  shapeCast _ (extractStridedSlice S1x1600000 ![1, 0] I slices_S2x1600000_S1x1600000_1_0) shapeCasts_S1x1600000_S1600000
def edgeRow0 (I : IVec S2x1600000 32) : IVec S1600000 32 :=
  shapeCast _ (extractStridedSlice S1x1600000 ![0, 0] I slices_S2x1600000_S1x1600000_0_0) shapeCasts_S1x1600000_S1600000

/-- The node features gathered at each edge's target node (a negative id counted from the end). -/
def gatheredRows (H : FVec Ideal S100000x128 .f32) (I : IVec S2x1600000 32) : FVec Ideal S1600000x128 .f32 :=
  Host.gather gather_S100000x128_S1600000x1_S1600000x128_1_0_n_n_0_1_1128 H
    (broadcastInDim S1600000x1 ![0] bcast_S1600000_S1600000x1_0
      (select (cmpi .slt (edgeRow1 I) (broadcastInDim S1600000 ![] bcast_S_S1600000 (constantI S_ 32 0#32)))
        (addi (edgeRow1 I) (broadcastInDim S1600000 ![] bcast_S_S1600000 (constantI S_ 32 100000#32))) (edgeRow1 I)))

/-- Every gathered row scaled by its edge's probability, added into the row of the edge's source node, from zeros. -/
def aggregated (P : FVec Ideal S1600000 .f32) (H : FVec Ideal S100000x128 .f32) (I : IVec S2x1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (edgeRow0 I))
    (mulf (gatheredRows H I) (broadcastInDim S1600000x128 ![0, 1] Scale.repeats (broadcastInDim S1600000x1 ![0] bcast_S1600000_S1600000x1_0 P)))

/-! ## Before the first region -/

theorem rows_entry (c : Dev nD) :
    V1 m ρ c main_v8 = gatheredRows (m ((c : Thread nD τ).loc main_arg1)) (m ((c : Thread nD τ).loc main_arg2)) := by
  show StableHlo.after hostOps0 (W0 m ρ c) (Proc.devRef .tc main_v8) = _
  after_results <;> rfl

/-- A vector reshaped into a column is the vector placed along the column's one axis. -/
theorem column_eq (P : FVec Ideal S1600000 .f32) :
    shapeCast S1600000x1 P shapeCasts_S1600000_S1600000x1 = broadcastInDim S1600000x1 ![0] bcast_S1600000_S1600000x1_0 P := by
  funext y
  obtain ⟨i, u, rfl⟩ : ∃ (i : Fin 1600000) (u : Fin 1), y = ix2 i u := ⟨y 0, y 1, eq_ix2 y⟩
  rw [shapeCast_a_a1_apply, broadcastInDim_a_a1_apply]

theorem col_entry (c : Dev nD) :
    V1 m ρ c main_v9 = broadcastInDim S1600000x1 ![0] bcast_S1600000_S1600000x1_0 (m ((c : Thread nD τ).loc main_arg0)) := by
  refine Eq.trans ?_ (column_eq _)
  show StableHlo.after hostOps0 (W0 m ρ c) (Proc.devRef .tc main_v9) = _
  after_results <;> rfl

/-! ## Between the regions -/

/-- The first region leaves the argument arrays as launched. -/
theorem kept_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)
theorem kept_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results <;> rfl)
theorem kept_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results <;> rfl)

/-- The first region's output array when it is left: every gathered row scaled by its probability. -/
theorem scaled_exit (c : Dev nD) :
    W2 m ρ c (Proc.devRef .tc main_v10)
      = mulf (gatheredRows (m ((c : Thread nD τ).loc main_arg1)) (m ((c : Thread nD τ).loc main_arg2)))
          (broadcastInDim S1600000x128 ![0, 1] Scale.repeats (broadcastInDim S1600000x1 ![0] bcast_S1600000_S1600000x1_0 (m ((c : Thread nD τ).loc main_arg0)))) := by
  refine (W2_arr m ρ c 2).trans ((Scale.final (V1 m ρ) c).trans ?_)
  unfold Scale.scaled Scale.rowsIn Scale.colIn
  rw [rows_entry, col_entry]

/-- The aggregated matrix as the second region finds it. -/
theorem agg_entry (c : Dev nD) :
    V3 m ρ c main_v15 = aggregated (m ((c : Thread nD τ).loc main_arg0)) (m ((c : Thread nD τ).loc main_arg1)) (m ((c : Thread nD τ).loc main_arg2)) := by
  have e : (V3 m ρ c main_v15 : FVec Ideal S100000x128 .f32) = Host.scatterAdd (F := Ideal) scatter_S100000x128_S1600000x1_S1600000x128_1_0_0_1
      (broadcastInDim S100000x128 ![] bcast_S_S100000x128 (constant S_ .f32 0x00000000#32))
      (broadcastInDim S1600000x1 ![0] bcast_S1600000_S1600000x1_0 (edgeRow0 (W2 m ρ c (Proc.devRef .tc main_arg2))))
      (W2 m ρ c (Proc.devRef .tc main_v10) : FVec Ideal S1600000x128 .f32) := by
    show StableHlo.after hostOps1 (W2 m ρ c) (Proc.devRef .tc main_v15) = _
    after_results <;> rfl
  rw [e, kept_arg2, scaled_exit]
  rfl

/-- The right operand as the second region finds it: the weight matrix transposed, narrowed. -/
theorem rhs_entry (c : Dev nD) :
    (V3 m ρ c main_v17 : FVec Ideal S128x128 .bf16) = truncf (F := Ideal) .bf16 (transpose S128x128 [1, 0] (m ((c : Thread nD τ).loc main_arg3) : FVec Ideal S128x128 .f32) transposes_S128x128_S128x128_1_0) bitsLt_bf16_f32 := by
  have e : (V3 m ρ c main_v17 : FVec Ideal S128x128 .bf16) = truncf (F := Ideal) .bf16 (transpose S128x128 [1, 0] (W2 m ρ c (Proc.devRef .tc main_arg3) : FVec Ideal S128x128 .f32) transposes_S128x128_S128x128_1_0) bitsLt_bf16_f32 := by
    show StableHlo.after hostOps1 (W2 m ρ c) (Proc.devRef .tc main_v17) = _
    after_results <;> rfl
  rw [e, kept_arg3]

/-- The bias row as the second region finds it: the bias vector reshaped. -/
theorem bias_entry (c : Dev nD) :
    V3 m ρ c main_v18 = shapeCast S1x128 (m ((c : Thread nD τ).loc main_arg4)) shapeCasts_S128_S1x128 := by
  have e : (V3 m ρ c main_v18 : FVec Ideal S1x128 .f32) = shapeCast S1x128 (W2 m ρ c (Proc.devRef .tc main_arg4) : FVec Ideal S128 .f32) shapeCasts_S128_S1x128 := by
    show StableHlo.after hostOps1 (W2 m ρ c) (Proc.devRef .tc main_v18) = _
    after_results <;> rfl
  rw [e, kept_arg4]

end Cert.KernelIdeal.Stretch

end
-- ==== Proof.LinearValue.lean ====
/-
  The second region is the linear layer: every row of the aggregated matrix times the weight matrix, plus the bias row.

  Its grid has 50 points; point `t` reads rows `2000·t, …, 2000·t + 1999` of the aggregated matrix `A` (100000 × 128),
  the whole 128 × 128 right operand and the whole 1 × 128 bias row, and writes the same rows of its output. The body
  narrows the block to sixteen-bit floats (the identity on extended reals), multiplies it by the right operand into a zero
  accumulator and adds the bias row to every row. Row `r` of a product `A·R` depends on row `r` of `A` alone, so the
  output array is `A·R + (b repeated along the rows)` for any matrix `R` the right operand agrees with entry by entry
  and any vector `b` the bias row is the reshape of.
-/
import proofs.«145233_j4913442586878_1_alg».proof.Proof.Gen.KernelIdeal.Frame
import proofs.«145233_j4913442586878_1_alg».proof.Proof.LibRowReduce
import Idealize.ShloMosaic.Lib.Pipeline.Value
import Idealize.ShloMosaic.Lib.ValueIdx

set_option maxRecDepth 16384

noncomputable section

namespace Cert.KernelIdeal.Linear

open Cert.KernelIdeal Cert.KernelIdeal.Gen Cert.RowBlock
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The aggregated matrix as the region finds it. -/
abbrev aggIn (c : Dev nD) : FVec Ideal S100000x128 .f32 := V c main_v15
/-- The right operand as the region finds it. -/
abbrev rhsIn (c : Dev nD) : FVec Ideal S128x128 .bf16 := V c main_v17
/-- The bias row as the region finds it. -/
abbrev biasIn (c : Dev nD) : FVec Ideal S1x128 .f32 := V c main_v18

/-- The linear layer on the whole aggregated matrix, as a host program spells it. -/
def affine (D : DotDims S100000x128 S128x128 S100000x128) (R : FVec Ideal S128x128 .f32) (b : FVec Ideal S128 .f32)
    (h1 : S128.BroadcastsInDim S1x128 (![1] : Fin 1 → Fin S1x128.rank))
    (h2 : S1x128.BroadcastsInDim S100000x128 (![0, 1] : Fin 2 → Fin S100000x128.rank)) (c : Dev nD) : FVec Ideal S100000x128 .f32 :=
  addf (Host.dotGeneral D none (aggIn V c) R) (broadcastInDim S100000x128 ![0, 1] h2 (broadcastInDim S1x128 ![1] h1 b))

theorem hz : (![0, 0] : Fin 2 → Nat) = fun _ => 0 := funext fun a => by fin_cases a <;> rfl

/-- At point `t` the aggregated matrix and the output are on block `(t, 0)`, the right operand and the bias on their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt_points (t : Fin cfg1.N) : t.val < 50 := lt_of_lt_of_eq t.isLt N_1

/-- The block of the aggregated matrix at point `t` is its rows `2000·t …`. -/
theorem agg_blk (c : Dev nD) (t : Fin cfg1.N) : IsRows 2000 t.val (aggIn V c) (iblk1 V c 0 t) := by
  intro p j r hr
  obtain ⟨e0, e1, -⟩ := idx_facts t
  show V c main_v15 (((cfg1.win 0).blk t).view.emb (ix2 p j)) = V c main_v15 (ix2 r j)
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * j.val = j.val; omega

/-- The right operand's block is the whole right operand at every point. -/
theorem rhs_blk (c : Dev nD) (t : Fin cfg1.N) (k j : Fin 128) : iblk1 V c 1 t (ix2 k j) = rhsIn V c (ix2 k j) := by
  obtain ⟨-, -, e0, e1, -⟩ := idx_facts t
  show V c main_v17 (((cfg1.win 1).blk t).view.emb (ix2 k j)) = V c main_v17 (ix2 k j)
  refine congrArg _ (funext fun a => Fin.ext ?_)
  match a with
  | ⟨0, _⟩ => show win1_1.index t (0 : Fin 2) * 128 + 1 * k.val = k.val; omega
  | ⟨1, _⟩ => show win1_1.index t (1 : Fin 2) * 128 + 1 * j.val = j.val; omega

/-- The bias block is the whole bias row at every point. -/
theorem bias_blk (c : Dev nD) (t : Fin cfg1.N) : iblk1 V c 2 t = biasIn V c := by
  obtain ⟨-, -, -, -, e0, e1, -⟩ := idx_facts t
  funext y
  show V c main_v18 (((cfg1.win 2).blk t).view.emb y) = V c main_v18 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The body's product is a plain one: the block contracted on its columns, the right operand on its rows. -/
theorem plain_blk : IsRows.Plain dot_S2000x128_S128x128_S2000x128_1_0_0_1_n_n 1 0 0 1 := ⟨rfl, rfl, rfl, rfl, rfl, rfl⟩

/-- An index of the output array is in point `t`'s block iff each coordinate is in the block's range on its axis. -/
theorem mem_blk (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v19).slice (win1_3.rect t)).set ↔ _
  rw [View.set_slice_whole, Rect.mem_set_unit]
  exact Iff.rfl

/-- Row `r` of the output lies in the block of point `r / 2000`: the 50 blocks cover the array. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hq : (i 0).val / 2000 < cfg1.N := by rw [show cfg1.N = 50 from N_1]; omega
  refine ⟨⟨(i 0).val / 2000, hq⟩, flush1_3 _, ?_⟩
  rw [mem_blk]
  obtain ⟨-, -, -, -, -, -, e0, e1⟩ := idx_facts ⟨(i 0).val / 2000, hq⟩
  intro a
  match a with
  | ⟨0, _⟩ =>
    show win1_3.index ⟨(i 0).val / 2000, hq⟩ (0 : Fin 2) * 2000 ≤ (i 0).val ∧ (i 0).val < win1_3.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win1_3.index ⟨(i 0).val / 2000, hq⟩ (1 : Fin 2) * 128 ≤ (i 1).val ∧ (i 1).val < win1_3.index ⟨(i 0).val / 2000, hq⟩ (1 : Fin 2) * 128 + 128
    rw [e1]; omega

variable (D : DotDims S100000x128 S128x128 S100000x128) (hD : IsRows.Plain D 1 0 0 1)
  (R : FVec Ideal S128x128 .f32) (b : FVec Ideal S128 .f32)
  (h1 : S128.BroadcastsInDim S1x128 (![1] : Fin 1 → Fin S1x128.rank))
  (h2 : S1x128.BroadcastsInDim S100000x128 (![0, 1] : Fin 2 → Fin S100000x128.rank))
  (hc : S128.ShapeCasts S1x128)
include hD

/-- What the body stores at point `t` is rows `2000·t …` of the linear layer's result. -/
theorem pay_blk (c : Dev nD) (hR : ∀ k j : Fin 128, rhsIn V c (ix2 k j) = R (ix2 k j)) (hb : biasIn V c = shapeCast S1x128 b hc)
    (t : Fin cfg1.N) :
    IsRows 2000 t.val (affine V D R b h1 h2 c) (k1_pay1 (iblk1 V c 0 t) (iblk1 V c 1 t) (iblk1 V c 2 t)) := by
  unfold k1_pay1 affine
  dsimp only
  rw [shapeCast_self, shapeCast_self, shapeCast_self, bias_blk, hb]
  exact IsRows.add
    (IsRows.dot (IsRows.trunc (agg_blk V c t) _) D _ hD plain_blk R _ (fun k j => (rhs_blk V c t k j).trans (hR k j)))
    (IsRows.bias b h1 h2 hc _)

/-- What point `t` writes back is block `t` of the linear layer's result. -/
theorem flushed_eq (c : Dev nD) (hR : ∀ k j : Fin 128, rhsIn V c (ix2 k j) = R (ix2 k j)) (hb : biasIn V c = shapeCast S1x128 b hc)
    (t : Fin cfg1.N) :
    (dat1 V c).flushed 3 t = ((cfg1.win 3).blk t).view.read (Elt Ideal) (affine V D R b h1 h2 c) := by
  show (cfg1.win 3).cut (grid1.coords t) ((dat1 V c).after 3 t) = _
  rw [after1_3]
  unfold out1_3
  rw [View.canon_unit_zero hz]
  simp only [View.ld_unit_zero (S := S2000x128) hz, View.ld_unit_zero (S := S128x128) hz, View.ld_unit_zero (S := S1x128) hz]
  funext y
  obtain ⟨p, j, rfl⟩ : ∃ (p : Fin 2000) (j : Fin 128), y = ix2 p j := ⟨y 0, y 1, eq_ix2 y⟩
  have ht := lt_points t
  have hr : 2000 * t.val + p.val < 100000 := by have := p.isLt; omega
  refine (pay_blk V D hD R b h1 h2 hc c hR hb t p j ⟨2000 * t.val + p.val, hr⟩ rfl).trans ?_
  obtain ⟨-, -, -, -, -, -, e0, e1⟩ := idx_facts t
  show affine V D R b h1 h2 c (ix2 ⟨2000 * t.val + p.val, hr⟩ j) = affine V D R b h1 h2 c (((cfg1.win 3).blk t).view.emb (ix2 p j))
  refine congrArg _ (funext fun a => Fin.ext ?_)
  match a with
  | ⟨0, _⟩ => show 2000 * t.val + p.val = win1_3.index t (0 : Fin 2) * 2000 + 1 * p.val; omega
  | ⟨1, _⟩ => show j.val = win1_3.index t (1 : Fin 2) * 128 + 1 * j.val; omega

/-- After the region its output array holds the linear layer's result on the aggregated matrix it was entered with. -/
theorem final (c : Dev nD) (hR : ∀ k j : Fin 128, rhsIn V c (ix2 k j) = R (ix2 k j)) (hb : biasIn V c = shapeCast S1x128 b hc) :
    (dat1 V c).arrAt 3 cfg1.N = affine V D R b h1 h2 c :=
  (dat1 V c).arrAt_eq_of_cover 3 (affine V D R b h1 h2 c) (fun t _ => flushed_eq V D hD R b h1 h2 hc c hR hb t) (cover)

end Cert.KernelIdeal.Linear

end
-- ==== Proof.KernelValue.lean ====
/-
  The whole program's result as one function of its five arguments.

  With `A` the aggregated matrix (every gathered feature row scaled by its edge's probability and added into the row of
  the edge's source node), the program ends with `A·Wᵀ + (b repeated along the rows)` in its result array: the second
  region computes the linear layer on the aggregated matrix it is entered with, its right operand is `Wᵀ` narrowed to
  sixteen-bit floats (the same extended reals), and its bias row is `b` reshaped.
-/
import proofs.«145233_j4913442586878_1_alg».proof.Proof.KernelRun
import proofs.«145233_j4913442586878_1_alg».proof.Proof.Stretches
import proofs.«145233_j4913442586878_1_alg».proof.Proof.LinearValue

set_option maxRecDepth 16384

noncomputable section

namespace Cert.KernelIdeal.Whole

open Cert.KernelIdeal Cert.KernelIdeal.Gen Cert.RowBlock
open Idealize.ShloMosaic Idealize.ShloMosaic.TcCoe Idealize.ShloMosaic.ValueIdx Idealize.SL.Sem

variable (m : (ℓ : Loc nD τ sig) → Buf (Elt Ideal) ℓ) (ρ : Dev nD → PrngReg)

/-- The aggregated matrix through the linear layer, the product's dimension numbers and the two broadcasts of the bias
    spelt as a host program spells them. -/
def result (D : DotDims S100000x128 S128x128 S100000x128)
    (h1 : S128.BroadcastsInDim S1x128 (![1] : Fin 1 → Fin S1x128.rank))
    (h2 : S1x128.BroadcastsInDim S100000x128 (![0, 1] : Fin 2 → Fin S100000x128.rank))
    (P : FVec Ideal S1600000 .f32) (H : FVec Ideal S100000x128 .f32) (I : IVec S2x1600000 32)
    (W : FVec Ideal S128x128 .f32) (B : FVec Ideal S128 .f32) : FVec Ideal S100000x128 .f32 :=
  addf (Host.dotGeneral D none (Stretch.aggregated P H I) (transpose S128x128 [1, 0] W transposes_S128x128_S128x128_1_0))
    (broadcastInDim S100000x128 ![0, 1] h2 (broadcastInDim S1x128 ![1] h1 B))

variable (D : DotDims S100000x128 S128x128 S100000x128) (hD : IsRows.Plain D 1 0 0 1)
  (h1 : S128.BroadcastsInDim S1x128 (![1] : Fin 1 → Fin S1x128.rank))
  (h2 : S1x128.BroadcastsInDim S100000x128 (![0, 1] : Fin 2 → Fin S100000x128.rank))
include hD

/-- What the second region's write-backs leave of its output array. -/
theorem result_eq (c : Dev nD) :
    (dat1 (V3 m ρ) c).arrAt 3 cfg1.N
      = result D h1 h2 (m ((c : Thread nD τ).loc main_arg0)) (m ((c : Thread nD τ).loc main_arg1)) (m ((c : Thread nD τ).loc main_arg2))
          (m ((c : Thread nD τ).loc main_arg3)) (m ((c : Thread nD τ).loc main_arg4)) := by
  refine (Linear.final (V3 m ρ) D hD (transpose S128x128 [1, 0] (m ((c : Thread nD τ).loc main_arg3)) transposes_S128x128_S128x128_1_0)
    (m ((c : Thread nD τ).loc main_arg4)) h1 h2 shapeCasts_S128_S1x128 c ?_ (Stretch.bias_entry m ρ c)).trans ?_
  · intro k j
    show V3 m ρ c main_v17 (ix2 k j) = _
    rw [Stretch.rhs_entry]
    rfl
  · unfold Linear.affine Linear.aggIn result
    rw [Stretch.agg_entry]

/-- Every weakly fair execution terminates without a fault with the result array at that function of the arguments and
    the arguments unchanged. -/
theorem run : θ_run defs (onTc (τ := τ) (main (F := Ideal))) ⟨m, fun _ => 0, ρ⟩ (fun r => ∀ c : Dev nD,
      r.2.mem ((c.tc : Thread nD τ).loc main_v19)
        = result D h1 h2 (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ D hD h1 h2 c), (h c).2⟩) (GenRun.run_main m ρ)

end Cert.KernelIdeal.Whole

end
-- ==== Proof.lean ====
/-
  The kernel program and its reference compute the same function on the extended reals.

  Both gather the feature row of each edge's target node, scale it by the edge's probability, add the scaled rows into
  the row of each edge's source node, and apply a linear layer `A ↦ A·Wᵀ + b` to the aggregated matrix `A`. The gather,
  the scatter-add and the index arithmetic before them are the same host operations in both programs and are carried
  as they stand. The kernel program does the scaling and the linear layer in two pipelined regions: the first writes,
  block of 6400 rows by block, each gathered row times its probability (the reference multiplies by the probability
  repeated along the row: the same entries); the second writes, block of 2000 rows by block, the block of `A` narrowed to
  sixteen-bit floats times `Wᵀ` narrowed likewise, accumulated from zero, plus the bias row. On the extended reals a
  change of float format is the identity and a product into a zero accumulator is the sum over the shared axis, and row
  `r` of `A·Wᵀ` reads row `r` of `A` only, so the blocks tile the reference's one product. No law that needs finite
  operands is used: the precondition is not opened.

  The three frames: the two kernel programs by their generated frame certificates, the reference by its generated run.
  The idealization rewrote nothing, so `preserves` has nothing to state.
-/
import proofs.«145233_j4913442586878_1_alg».proof.Defs
import proofs.«145233_j4913442586878_1_alg».proof.Proof.Gen.Kernel
import proofs.«145233_j4913442586878_1_alg».proof.Proof.Gen.Kernel.Frame
import proofs.«145233_j4913442586878_1_alg».proof.Proof.Gen.KernelIdeal
import proofs.«145233_j4913442586878_1_alg».proof.Proof.Gen.KernelIdeal.Frame
import proofs.«145233_j4913442586878_1_alg».proof.Proof.Gen.ReferenceIdeal
import proofs.«145233_j4913442586878_1_alg».proof.Proof.Gen.ReferenceIdeal.Run
import proofs.«145233_j4913442586878_1_alg».proof.Proof.Gen.Pre_finite_inputs
import proofs.«145233_j4913442586878_1_alg».proof.Proof.KernelValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The reference's product contracts the aggregated matrix on its columns and the transposed weights on their rows. -/
theorem plain_ref : Cert.RowBlock.IsRows.Plain Cert.ReferenceIdeal.dot_S100000x128_S128x128_S100000x128_1_0_0_1_n_n 1 0 0 1 :=
  ⟨rfl, rfl, rfl, rfl, rfl, rfl⟩

/-- Both programs end with the aggregated matrix through the linear layer: the kernel program by its two regions'
    block-by-block values, the reference by its run; the two terms are the same operations of the same arguments. -/
theorem algebraic : Cert.algebraic_KernelIdeal_ReferenceIdeal := by
  intro m ρ m' ρ' _ hagree
  refine ⟨_, Cert.KernelIdeal.Whole.run m ρ Cert.ReferenceIdeal.dot_S100000x128_S128x128_S100000x128_1_0_0_1_n_n plain_ref
    Cert.ReferenceIdeal.Facts₀.bcast_S128_S1x128_1 Cert.ReferenceIdeal.Facts₀.bcast_S1x128_S100000x128_0_1, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
